-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x256 : Shape := ⟨3, ![1024, 256, 256]⟩
abbrev S1x1x256 : Shape := ⟨3, ![1, 1, 256]⟩
abbrev S1024 : Shape := ⟨1, ![1024]⟩
abbrev S_ : Shape := ⟨0, ![]⟩

class Facts : Prop where
  bcast_S_S1024x256x256 : S_.BroadcastsInDim S1024x256x256 (![] : Fin 0 → Fin S1024x256x256.rank)
  reducesTo_S1024x256x256_S_d0_1_2 : S1024x256x256.ReducesTo [0, 1, 2] S_
  h_S_ : 0 < S_.numel
  bcast_S_S1x1x256 : S_.BroadcastsInDim S1x1x256 (![] : Fin 0 → Fin S1x1x256.rank)
  reducesTo_S1x1x256_S_d0_1_2 : S1x1x256.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg3 : IVec S1024 32) (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v13 main_v16
  let main_c_6 : IVec S_ 32 := constantI S_ 32 1024#32
  let main_v18 : IVec S1024 32 := broadcastInDim S1024 ![] bcast_S_S1024 main_c_6
  let main_v19 : IVec S1024 1 := cmpi .slt main_arg3 main_v18
  let main_c_7 : IVec S_ 1 := constantI S_ 1 1#1
  let main_v20 : IVec S_ 1 := (fun x v => Host.reduce IntOp.andi x v reducesTo_S1024_S_d0 h_S_) main_v19 main_c_7
  let main_v21 : IVec S_ 1 := andi main_v17 main_v20
  main_v21

def fn {F : FTy → Type} [FloatOps F] (main_arg0 : FVec F S1024x256x256 .f32) (main_arg1 : FVec F S1024x256x256 .f32) (main_arg2 : FVec F S1x1x256 .f32) (main_arg3 : IVec S1024 32) : IVec S_ 1 :=
  let main_v0 : FVec F S1024x256x256 .f32 := Host.absf main_arg0
  let main_cst : FVec F S_ .f32 := constant S_ .f32 0x7F800000#32
  let main_v1 : FVec F S1024x256x256 .f32 := broadcastInDim S1024x256x256 ![] bcast_S_S1024x256x256 main_cst
  let main_v2 : IVec S1024x256x256 1 := cmpf .olt main_v0 main_v1
  let main_c : IVec S_ 1 := constantI S_ 1 1#1
  let main_v3 : IVec S_ 1 := (fun x v => Host.reduce IntOp.andi x v reducesTo_S1024x256x256_S_d0_1_2 h_S_) main_v2 main_c
  let main_v4 : FVec F S1024x256x256 .f32 := Host.absf main_arg1
  let main_cst_0 : FVec F S_ .f32 := constant S_ .f32 0x7F800000#32
  let main_v5 : FVec F S1024x256x256 .f32 := broadcastInDim S1024x256x256 ![] bcast_S_S1024x256x256 main_cst_0
  let main_v6 : IVec S1024x256x256 1 := cmpf .olt main_v4 main_v5
  let main_c_1 : IVec S_ 1 := constantI S_ 1 1#1
  let main_v7 : IVec S_ 1 := (fun x v => Host.reduce IntOp.andi x v reducesTo_S1024x256x256_S_d0_1_2 h_S_) main_v6 main_c_1
  let main_v8 : IVec S_ 1 := andi main_v3 main_v7
  let main_v9 : FVec F S1x1x256 .f32 := Host.absf main_arg2
  let main_cst_2 : FVec F S_ .f32 := constant S_ .f32 0x7F800000#32
  let main_v10 : FVec F S1x1x256 .f32 := broadcastInDim S1x1x256 ![] bcast_S_S1x1x256 main_cst_2
  let main_v11 : IVec S1x1x256 1 := cmpf .olt main_v9 main_v10
  let main_c_3 : IVec S_ 1 := constantI S_ 1 1#1
  let main_v12 : IVec S_ 1 := (fun x v => Host.reduce IntOp.andi x v reducesTo_S1x1x256_S_d0_1_2 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg3 main_v14
  let main_c_5 : IVec S_ 1 := constantI S_ 1 1#1
  fn_part1 (F := F) main_arg3 main_v13 main_v15 main_c_5
-- ==== Kernel.lean ====
abbrev S1024x256x256 : Shape := ⟨3, ![1024, 256, 256]⟩
abbrev S1x1x256 : Shape := ⟨3, ![1, 1, 256]⟩
abbrev S1024 : Shape := ⟨1, ![1024]⟩
abbrev S1x256x256 : Shape := ⟨3, ![1, 256, 256]⟩
abbrev S1 : Shape := ⟨1, ![1]⟩
abbrev S256x256 : Shape := ⟨2, ![256, 256]⟩
abbrev S256 : Shape := ⟨1, ![256]⟩
abbrev S1x256 : Shape := ⟨2, ![1, 256]⟩

abbrev nBuf : Space → Nat
  | .hbm => 4
  | .vmem => 7
  | .smem => 1
  | _ => 0

abbrev bufTy : (tb : Table) → Fin (tcTables nBuf tb) → BufTy
  | .hbm, ⟨0, _⟩ => ⟨S1024x256x256, .f32⟩
  | .hbm, ⟨1, _⟩ => ⟨S1024x256x256, .f32⟩
  | .hbm, ⟨2, _⟩ => ⟨S1x1x256, .f32⟩
  | .hbm, ⟨3, _⟩ => ⟨S1024x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x256x256, .f32⟩
  | .local _ .vmem, ⟨6, _⟩ => ⟨S1x256x256, .f32⟩
  | .local _ .smem, ⟨0, _⟩ => ⟨S1024, .i32⟩
  | _, _ => ⟨S1024x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![1024], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1 : S1.numel = 1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  broadcasts_S1x256_S256x256 : S1x256.Broadcasts S256x256
  shapeCasts_S256x256_S1x256x256 : S256x256.ShapeCasts S1x256x256
  dot_S256x256_S256x256_S256x256_1_0_0_1_n_n_wf : DotDims.WF S256x256 S256x256 S256x256 [1] [0] [0] [1] [] []
  hrank0 : 0 < grid0.rank
  k0_off1_inb : ∀ i : grid0.Coords, ∀ a, (k0_off1 i) a + S1.size a ≤ S1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S1024x256x256.size a
  hwx0_0 : ∀ i : grid0.Coords, EltTy.bits .f32 = 32 ∨ (Rect.block (s := S1024x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S1x1x256.size a
  hwx0_2 : ∀ i : grid0.Coords, EltTy.bits .f32 = 32 ∨ (Rect.block (s := S1x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S1024x256x256.size a
  hwx0_3 : ∀ i : grid0.Coords, EltTy.bits .f32 = 32 ∨ (Rect.block (s := S1024x256x256) S1x256x256.size (cc0_transform_3 i) (hinb0_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev spec0_0 : Pipeline.WinSpec sig grid0.rank :=
  Pipeline.WinSpec.ofSpec (Memref.whole main_arg0) S1x256x256.size reads0_0 false false 2 stage0_0 sem0_0 nbuf0_0 hstage0_0

abbrev spec0_1 : Pipeline.WinSpec sig grid0.rank :=
  Pipeline.WinSpec.ofSpec (Memref.whole main_arg1) S1x256x256.size reads0_1 false false 2 stage0_1 sem0_1 nbuf0_1 hstage0_1

abbrev spec0_2 : Pipeline.WinSpec sig grid0.rank :=
  Pipeline.WinSpec.ofSpec (Memref.whole main_arg2) S1x1x256.size reads0_2 false true 1 stage0_2 sem0_2 nbuf0_2 hstage0_2

abbrev spec0_3 : Pipeline.WinSpec sig grid0.rank :=
  Pipeline.WinSpec.ofSpec (Memref.whole main_v0) S1x256x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S1024x256x256.size a), EltTy.bits .f32 = 32 ∨ (Rect.block (s := S1024x256x256) S1x256x256.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S1024x256x256 : Shape := ⟨3, ![1024, 256, 256]⟩
abbrev S1x1x256 : Shape := ⟨3, ![1, 1, 256]⟩
abbrev S1024 : Shape := ⟨1, ![1024]⟩
abbrev S_ : Shape := ⟨0, ![]⟩
abbrev S1024x1 : Shape := ⟨2, ![1024, 1]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S1024x256x256, .f32⟩
  | .hbm, ⟨1, _⟩ => ⟨S1024x256x256, .f32⟩
  | .hbm, ⟨2, _⟩ => ⟨S1x1x256, .f32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x256x256, .f32⟩
  | .hbm, ⟨13, _⟩ => ⟨S1024x256x256, .f32⟩
  | .hbm, ⟨14, _⟩ => ⟨S1x256, .f32⟩
  | .hbm, ⟨15, _⟩ => ⟨S1x1x256, .f32⟩
  | .hbm, ⟨16, _⟩ => ⟨S1024x256x256, .f32⟩
  | .hbm, ⟨17, _⟩ => ⟨S1024x256x256, .f32⟩
  | .hbm, ⟨18, _⟩ => ⟨S_, .f32⟩
  | .hbm, ⟨19, _⟩ => ⟨S1024x256x256, .f32⟩
  | .hbm, ⟨20, _⟩ => ⟨S1024x256x256, .f32⟩
  | .hbm, ⟨21, _⟩ => ⟨S1024x256x256, .f32⟩
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  shapeCasts_S1x1x256_S1x256 : S1x1x256.ShapeCasts S1x256
  bcast_S1x256_S1x1x256_1_2 : S1x256.BroadcastsInDim S1x1x256 (![1, 2] : Fin 2 → Fin S1x1x256.rank)
  bcast_S1x1x256_S1024x256x256_0_1_2 : S1x1x256.BroadcastsInDim S1024x256x256 (![0, 1, 2] : Fin 3 → Fin S1024x256x256.rank)
  bcast_S_S1024x256x256 : S_.BroadcastsInDim S1024x256x256 (![] : Fin 0 → Fin S1024x256x256.rank)
  gather_S1024x256x256_S1024x1_S1024x256x256_12_0_n_n_0_1_1256256_wf : GatherDims.WF S1024x256x256 S1024x1 S1024x256x256 [1, 2] [0] [] [0] [] 1 ![1, 256, 256]
  dot_S1024x256x256_S1024x256x256_S1024x256x256_2_1_1_2_0_0_wf : DotDims.WF S1024x256x256 S1024x256x256 S1024x256x256 [2] [1] [1] [2] [0] [0]

variable [Facts₀]

def gather_S1024x256x256_S1024x1_S1024x256x256_12_0_n_n_0_1_1256256 : GatherDims S1024x256x256 S1024x1 S1024x256x256 where
  offsetDims := [1, 2]
  collapsedSliceDims := [0]
  operandBatchingDims := []
  startIndicesBatchingDims := []
  startIndexMap := [0]
  indexVectorDim := 1
  sliceSizes := ![1, 256, 256]
  wf := gather_S1024x256x256_S1024x1_S1024x256x256_12_0_n_n_0_1_1256256_wf
def dot_S1024x256x256_S1024x256x256_S1024x256x256_2_1_1_2_0_0 : DotDims S1024x256x256 S1024x256x256 S1024x256x256 where
  lhsContracting := [2]
  rhsContracting := [1]
  lhsNonContracting := [1]
  rhsNonContracting := [2]
  lhsBatch := [0]
  rhsBatch := [0]
  wf := dot_S1024x256x256_S1024x256x256_S1024x256x256_2_1_1_2_0_0_wf

class Facts : Prop extends Facts₀ where

variable [Facts]
-- ==== Proof.LibTakeMask.lean ====
/-
  A row gather guarded by a validity mask ("take, filling what is out of range").

  Such a take wraps negative indices (a word that is negative as a signed number has the axis's extent added), tests
  the wrapped word against the bounds 0 and extent − 1, gathers, and keeps the gathered row only where the test passed,
  putting a fill value elsewhere. When every index word is a row number already, the wrap is the identity, every test
  passes, and the take is the plain gather. The lemmas here are the pieces of that argument: words in range compare
  as expected, an "and"-reduction of all-ones is one, and a selection under an all-ones mask is its first branch.
-/
import Idealize.ShloMosaic.Lib.ReduceAll
import Idealize.ShloMosaic.Lib.StableHlo.Predicate
import Idealize.ShloMosaic.Lib.Pipeline.Value
import Idealize.ShloMosaic.Lib.ValueIdx

noncomputable section

namespace Cert.TakeMask

open Idealize.ShloMosaic Idealize.ShloMosaic.ValueIdx

/-- A left fold by "and" from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_of_all f l _ (IntOp.andi_eq_one.2 ⟨h, hl a List.mem_cons_self⟩) fun n hn => hl n (List.mem_cons_of_mem _ hn)

/-- An "and"-reduction whose operand is all ones, started from one, is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit fun n _ => hx n

/-- A selection under a mask that is one everywhere is its first branch. -/
theorem select_of_all {s : Shape} {α : Type} (c : IVec s 1) (a b : s.Idx → α) (hc : ∀ i, c i = 1#1) : select c a b = a := by
  funext i
  show Scalar.select (c i) (a i) (b i) = a i
  rw [hc i]; rfl

/-- A word that is, signed, at least 0 and below a bound `N` is the number it spells, below `N`. -/
theorem toNat_lt_of_cmp (N : ℕ) (hN : N < 2 ^ 31) (w : BitVec 32) (h0 : IntOp.cmpi .sge w 0#32 = 1#1)
    (h1 : IntOp.cmpi .slt w (BitVec.ofNat 32 N) = 1#1) : w.toNat < N := by
  have e0 : BitVec.ofBool ((0#32).sle w) = 1#1 := h0
  have e0' : (0#32).sle w = true := (StableHlo.Predicate.ofBool_eq_one_iff _).1 e0
  have hw : w.toNat < 2 ^ 31 := by
    have e : (0#32).toInt ≤ w.toInt := by simpa [BitVec.sle] using e0'
    have z : (0#32).toInt = 0 := rfl
    rw [z, BitVec.toInt_eq_msb_cond] at e
    cases hm : w.msb with
    | false => have := BitVec.msb_eq_false_iff_two_mul_lt.mp hm; omega
    | true => rw [hm] at e; simp at e; have := w.isLt; omega
  have hN' : N % 2 ^ 32 = N := Nat.mod_eq_of_lt (by omega)
  have hb : (BitVec.ofNat 32 N).toNat < 2 ^ 31 := by rw [BitVec.toNat_ofNat, hN']; exact hN
  have := (StableHlo.Predicate.slt_iff_toNat hw hb).1 h1
  rw [BitVec.toNat_ofNat, hN'] at this
  exact this

/-- A word below `N` passes the take's two tests: signed, it is at least 0 and at most `N − 1`. -/
theorem cmp_of_toNat_lt (N : ℕ) (hN : N < 2 ^ 31) (w : BitVec 32) (h : w.toNat < N) :
    IntOp.cmpi .sge w 0#32 = 1#1 ∧ IntOp.cmpi .sle w (BitVec.ofNat 32 (N - 1)) = 1#1 := by
  have hw : w.toNat < 2 ^ 31 := by omega
  have hN' : (N - 1) % 2 ^ 32 = N - 1 := Nat.mod_eq_of_lt (by omega)
  have hb : (BitVec.ofNat 32 (N - 1)).toNat < 2 ^ 31 := by rw [BitVec.toNat_ofNat, hN']; omega
  refine ⟨(StableHlo.Predicate.sge_iff_toNat hw (by decide)).2 (Nat.zero_le _), (StableHlo.Predicate.sle_iff_toNat hw hb).2 ?_⟩
  rw [BitVec.toNat_ofNat, hN']; omega

/-- On a word that is not negative the wrap of negative indices does nothing, whatever would have been added. -/
theorem wrap_of_nonneg (w K : BitVec 32) (h : w.toNat < 2 ^ 31) :
    Scalar.select (IntOp.cmpi .slt w 0#32) (IntOp.addi w K) w = w := by
  have hlt : ¬ IntOp.cmpi .slt w 0#32 = 1#1 := fun hc => by
    have := (StableHlo.Predicate.slt_iff_toNat h (by decide)).1 hc
    simp at this
  exact if_neg hlt

/-- Entry `p` of the vector of the first `n` numbers is the word of `p`. -/
theorem iota_toNat {n : ℕ} (hn : n ≤ 2 ^ 32) (p : Fin n) : (iotaInDim (⟨1, ![n]⟩ : Shape) 32 0 (ix1 p)).toNat = p.val := by
  show (BitVec.ofNat 32 p.val).toNat = p.val
  rw [BitVec.toNat_ofNat]; exact Nat.mod_eq_of_lt (by have := p.isLt; omega)

/-- A vector of index words followed by the numbers 0, 1, …, n₂ − 1 (a list of edges' endpoints followed by every
    node's own number): if every word of the first part spells a number below `N` and `n₂ ≤ N`, so does every entry. -/
theorem concat_iota_toNat_lt {n₁ n₂ n : ℕ} (x : IVec ⟨1, ![n₁]⟩ 32) (N : ℕ) (hN : n₂ ≤ N) (hn₂ : n₂ ≤ 2 ^ 32)
    (hx : ∀ i, (x i).toNat < N) (h : Shape.Concatenates [(⟨1, ![n₁]⟩ : Shape), ⟨1, ![n₂]⟩] ⟨1, ![n]⟩ 0)
    (j : (⟨1, ![n]⟩ : Shape).Idx) :
    (concatenate ⟨1, ![n]⟩ 0 [⟨⟨1, ![n₁]⟩, x⟩, ⟨⟨1, ![n₂]⟩, iotaInDim (⟨1, ![n₂]⟩ : Shape) 32 0⟩] h j).toNat < N := by
  have hsum : n₁ + n₂ = n := by
    have e := h.2.2
    simpa using e
  by_cases hj : (j 0).val < n₁
  · rw [concatenate_pair_apply_left (0 : Fin 1) x (iotaInDim (⟨1, ![n₂]⟩ : Shape) 32 0) h j rfl (ix1 (⟨(j 0).val, hj⟩ : Fin n₁)) (fun b => by
      have hb : b = 0 := Subsingleton.elim _ _
      subst hb; rfl)]
    exact hx _
  · have hq : (j 0).val - n₁ < n₂ := by have := (j 0).isLt; simp at this; omega
    rw [concatenate_pair_apply_right (0 : Fin 1) x (iotaInDim (⟨1, ![n₂]⟩ : Shape) 32 0) h j rfl rfl (ix1 (⟨(j 0).val - n₁, hq⟩ : Fin n₂))
      (fun b hb => absurd (Subsingleton.elim _ _) hb) (by
        show (j 0).val - n₁ + n₁ = (j 0).val
        omega)]
    rw [iota_toNat hn₂]
    show (j 0).val - n₁ < N
    omega

end Cert.TakeMask

end
-- ==== Proof.IndexRange.lean ====
/-
  The tile indices are row numbers of the weight table.

  The precondition is a conjunction of five tests, each an "and" over a whole array: the three float arrays finite, every
  index word at least 0 as a signed number, every index word below 1024 as a signed number. From the last two, every
  index word, read as an unsigned number, is below 1024: it names one of the 1024 slices of the weight table. Nothing
  is used of the finiteness tests. Stated for any float instance, since the words are integers.
-/
import proofs.«166706_j11982958756456_1_alg».proof.Pre_finite_inputs
import proofs.«166706_j11982958756456_1_alg».proof.Proof.LibTakeMask
import Idealize.ShloMosaic.Lib.ReduceAll
import Idealize.ShloMosaic.Lib.IdealHost
import Idealize.ShloMosaic.Lib.ValueIdx

noncomputable section

namespace Cert.IndexRange

open Idealize.ShloMosaic Idealize.ShloMosaic.ValueIdx Cert.Pre_finite_inputs

variable {F : FTy → Type} [FloatOps F] [Cert.Pre_finite_inputs.Facts]

instance : Subsingleton S_.Idx := ⟨fun a b => funext fun d => d.elim0⟩

/-- Under the precondition every index word is, unsigned, below 1024. -/
theorem toNat_lt (a0 a1 : FVec F S1024x256x256 .f32) (a2 : FVec F S1x1x256 .f32) (a3 : IVec S1024 32)
    (h : Cert.Pre_finite_inputs.fn (F := F) a0 a1 a2 a3 = fun _ => 1#1) (i : S1024.Idx) : (a3 i).toNat < 1024 := by
  have e := congrFun h ix0
  dsimp only [Cert.Pre_finite_inputs.fn, Cert.Pre_finite_inputs.fn_part1] at e
  -- the outermost "and": the upper test; the one inside it: the lower test
  obtain ⟨e1, hlt⟩ := IntOp.andi_eq_one.1 e
  obtain ⟨-, hge⟩ := IntOp.andi_eq_one.1 e1
  have hge' := Host.reduce_andi_all _ _ _ _ _ hge i
  have hlt' := Host.reduce_andi_all _ _ _ _ _ hlt i
  refine Cert.TakeMask.toNat_lt_of_cmp 1024 (by decide) (a3 i) ?_ ?_
  · have : IntOp.cmpi .sge (a3 i) (broadcastInDim S1024 ![] Facts.bcast_S_S1024 (constantI S_ 32 0#32) i) = 1#1 := hge'
    rwa [broadcastInDim_scalar_apply] at this
  · have : IntOp.cmpi .slt (a3 i) (broadcastInDim S1024 ![] Facts.bcast_S_S1024 (constantI S_ 32 1024#32) i) = 1#1 := hlt'
    rwa [broadcastInDim_scalar_apply] at this

end Cert.IndexRange

end
-- ==== Proof.TableInRangeBits.lean ====
/-
  The weight window stays inside the weight table.

  At grid point t the weight window's block is the slice whose number is the t-th index word read as an unsigned
  number, whole in the other two axes. The block lies inside the [1024, 256, 256] table exactly when that number is
  below 1024, which the precondition gives for every word of the index table.
-/
import proofs.«166706_j11982958756456_1_alg».proof.Defs
import proofs.«166706_j11982958756456_1_alg».proof.Proof.Gen.Kernel.Frame
import proofs.«166706_j11982958756456_1_alg».proof.Proof.IndexRange

set_option maxRecDepth 16384

noncomputable section

namespace Cert.Kernel.TableInRange

open Cert.Kernel Cert.Kernel.Gen
open Idealize.ShloMosaic Idealize.ShloMosaic.TcCoe Idealize.SL.Sem

variable [Cert.Pre_finite_inputs.Facts]
variable (m : (ℓ : Loc nD τ sig) → Buf (Elt Bits) ℓ)

/-- Every word of the index table, as the region finds it, is below 1024. -/
theorem word_lt (h : Cert.Pre_Kernel m) (x : S1024.Idx) : (tbl m 0 x).toNat < 1024 :=
  Cert.IndexRange.toNat_lt (F := Bits) _ _ _ _ (h 0) x

/-- The side condition of the table-indexed window: its block inside the table, at every grid point. -/
theorem ok_of_pre (h : Cert.Pre_Kernel m) : Ok m := by
  intro i
  obtain ⟨w, hw, e⟩ : ∃ w : BitVec 32, w.toNat < 1024 ∧ cc0_transform_1 k0_off1_inb numel1_S1 (tbl m) i = ![w.toNat, 0, 0] :=
    ⟨_, word_lt m h _, rfl⟩
  refine ⟨fun a => ?_, Or.inl rfl⟩
  rw [e]
  fin_cases a <;> simp [S1x256x256, S1024x256x256] <;> omega

end Cert.Kernel.TableInRange

end
-- ==== Proof.TableInRangeIdeal.lean ====
/-
  The weight window stays inside the weight table.

  At grid point t the weight window's block is the slice whose number is the t-th index word read as an unsigned
  number, whole in the other two axes. The block lies inside the [1024, 256, 256] table exactly when that number is
  below 1024, which the precondition gives for every word of the index table.
-/
import proofs.«166706_j11982958756456_1_alg».proof.Defs
import proofs.«166706_j11982958756456_1_alg».proof.Proof.Gen.KernelIdeal.Frame
import proofs.«166706_j11982958756456_1_alg».proof.Proof.IndexRange

set_option maxRecDepth 16384

noncomputable section

namespace Cert.KernelIdeal.TableInRange

open Cert.KernelIdeal Cert.KernelIdeal.Gen
open Idealize.ShloMosaic Idealize.ShloMosaic.TcCoe Idealize.SL.Sem

variable [Cert.Pre_finite_inputs.Facts]
variable (m : (ℓ : Loc nD τ sig) → Buf (Elt Ideal) ℓ)

/-- Every word of the index table, as the region finds it, is below 1024. -/
theorem word_lt (h : Cert.Pre_KernelIdeal m) (x : S1024.Idx) : (tbl m 0 x).toNat < 1024 :=
  Cert.IndexRange.toNat_lt (F := Ideal) _ _ _ _ (h 0) x

/-- The side condition of the table-indexed window: its block inside the table, at every grid point. -/
theorem ok_of_pre (h : Cert.Pre_KernelIdeal m) : Ok m := by
  intro i
  obtain ⟨w, hw, e⟩ : ∃ w : BitVec 32, w.toNat < 1024 ∧ cc0_transform_1 k0_off1_inb numel1_S1 (tbl m) i = ![w.toNat, 0, 0] :=
    ⟨_, word_lt m h _, rfl⟩
  refine ⟨fun a => ?_, Or.inl rfl⟩
  rw [e]
  fin_cases a <;> simp [S1x256x256, S1024x256x256] <;> omega

end Cert.KernelIdeal.TableInRange

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.TileBody.lean ====
/-
  What one grid point computes.

  At a grid point the body holds one [1, 256, 256] block of the activations, one [1, 256, 256] slice of the weight table
  and the [1, 1, 256] bias row. Read over the extended reals (where the narrowing to bf16 before the product is the
  identity) the block it stores has, at row p and column q, the value

      sin (30 * (sum over k of x(0, p, k) * w(0, k, q)  +  b(0, 0, q))).

  The pieces: a [1, 256, 256] block viewed as a matrix reads the block at (0, p, q); the matrix product into the zero
  accumulator is the plain sum of products; the bias row viewed as a vector, then as a [1, 256] row, then repeated down
  the 256 rows, reads b(0, 0, q); the sine, the product with 30 and the sum act entry by entry.
-/
import proofs.«166706_j11982958756456_1_alg».proof.Proof.Gen.KernelIdeal.Skeleton
import proofs.«166706_j11982958756456_1_alg».proof.Proof.LibPlainMatmul
import Idealize.ShloMosaic.Lib.Pipeline.Value
import Idealize.ShloMosaic.Lib.ValueIdx
import Idealize.ShloMosaic.PureOps.Ideal.Laws

noncomputable section

namespace Cert.TileBody

open Cert.KernelIdeal Cert.KernelIdeal.Gen Idealize.ShloMosaic Idealize.ShloMosaic.ValueIdx

/-- The body's product contracts the left operand's columns with the right operand's rows. -/
theorem dims_plain : dot_S256x256_S256x256_S256x256_1_0_0_1_n_n = DotDims.plain 256 256 256 := rfl

/-- A [1, 256, 256] block viewed as a [256, 256] matrix reads, at (p, q), the block at (0, p, q). -/
theorem block_as_matrix {α : Type} (v : S1x256x256.Idx → α) (h : S1x256x256.ShapeCasts S256x256) (p q : Fin 256) :
    shapeCast S256x256 v h (ix2 p q) = v (ix3 (0 : Fin 1) p q) := by
  refine shapeCast_apply v h (ix2 p q) (ix3 (0 : Fin 1) p q) ?_
  rw [Shape.rowMajor_val_three, Shape.rowMajor_val_two]
  show (0 * 256 + p.val) * 256 + q.val = p.val * 256 + q.val
  omega

/-- A [256, 256] matrix viewed as a [1, 256, 256] block reads, at (z, p, q), the matrix at (p, q). -/
theorem matrix_as_block {α : Type} (v : S256x256.Idx → α) (h : S256x256.ShapeCasts S1x256x256) (z : Fin 1) (p q : Fin 256) :
    shapeCast S1x256x256 v h (ix3 z p q) = v (ix2 p q) := by
  refine shapeCast_apply v h (ix3 z p q) (ix2 p q) ?_
  rw [Shape.rowMajor_val_three, Shape.rowMajor_val_two]
  show p.val * 256 + q.val = (z.val * 256 + p.val) * 256 + q.val
  have := z.isLt
  omega

/-- The bias row, flattened to a vector, laid out as one row and repeated down 256 rows, reads b(0, 0, q) at (p, q). -/
theorem bias_rows {α : Type} (v : S1x1x256.Idx → α) (h1 : S1x1x256.ShapeCasts S256) (h2 : S256.ShapeCasts S1x256)
    (h3 : S1x256.Broadcasts S256x256) (p q : Fin 256) :
    broadcastTo S256x256 (shapeCast S1x256 (shapeCast S256 v h1) h2) h3 (ix2 p q) = v (ix3 (0 : Fin 1) (0 : Fin 1) q) := by
  refine (broadcastTo_apply _ h3 (ix2 p q) (ix2 (0 : Fin 1) q) (fun a => ?_)).trans ?_
  · match a with
    | ⟨0, _⟩ => show 0 = if (1 : Nat) = 1 then 0 else _; rw [if_pos rfl]
    | ⟨1, _⟩ => show q.val = if (256 : Nat) = 1 then 0 else q.val; rw [if_neg (by decide)]
  refine (shapeCast_apply _ h2 (ix2 (0 : Fin 1) q) (ix1 q) ?_).trans ?_
  · rw [Shape.rowMajor_val_one, Shape.rowMajor_val_two]
    show q.val = 0 * 256 + q.val
    omega
  refine shapeCast_apply v h1 (ix1 q) (ix3 (0 : Fin 1) (0 : Fin 1) q) ?_
  rw [Shape.rowMajor_val_three, Shape.rowMajor_val_one]
  show (0 * 1 + 0) * 256 + q.val = q.val
  omega

/-- The product of the two blocks, each viewed as a matrix and narrowed, into the zero accumulator: at (p, q) the sum
    over k of x(0, p, k) * w(0, k, q). -/
theorem product_apply (x0 x1 : Vec Ideal S1x256x256 .f32) (h : S1x256x256.ShapeCasts S256x256) (hb : FTy.bf16.bits < FTy.f32.bits)
    (p q : Fin 256) :
    matmul (F := Ideal) dot_S256x256_S256x256_S256x256_1_0_0_1_n_n none (truncf .bf16 (shapeCast S256x256 x0 h) hb)
        (truncf .bf16 (shapeCast S256x256 x1 h) hb) (constant (F := Ideal) S256x256 .f32 0x00000000#32) (ix2 p q)
      = ∑ k : Fin 256, x0 (ix3 (0 : Fin 1) p k) * x1 (ix3 (0 : Fin 1) k q) := by
  refine (Cert.PlainMatmul.apply (M := 256) (K := 256) (N := 256) none
    (truncf .bf16 (shapeCast S256x256 x0 h) hb) (truncf .bf16 (shapeCast S256x256 x1 h) hb) p q).trans ?_
  refine Finset.sum_congr rfl fun k _ => ?_
  show shapeCast S256x256 x0 h (ix2 p k) * shapeCast S256x256 x1 h (ix2 k q) = _
  rw [block_as_matrix, block_as_matrix]

/-- THE STORED BLOCK at (z, p, q): sin (30 * (sum over k of x(0, p, k) * w(0, k, q) + b(0, 0, q))). -/
theorem pay_apply (x0 x1 : Vec Ideal S1x256x256 .f32) (x2 : Vec Ideal S1x1x256 .f32) (z : Fin 1) (p q : Fin 256) :
    k0_pay1 (F := Ideal) x0 x1 x2 (ix3 z p q)
      = Ideal.sin (Ideal.ofBits .f32 0x41F00000#32
          * ((∑ k : Fin 256, x0 (ix3 (0 : Fin 1) p k) * x1 (ix3 (0 : Fin 1) k q)) + x2 (ix3 (0 : Fin 1) (0 : Fin 1) q))) := by
  unfold k0_pay1
  refine (matrix_as_block _ _ z p q).trans ?_
  exact congrArg (fun s => Ideal.sin (Ideal.ofBits .f32 0x41F00000#32 * s))
    (congrArg₂ (· + ·) (product_apply x0 x1 _ _ p q) (bias_rows x2 _ _ _ p q))

end Cert.TileBody

end
-- ==== Proof.Spec.lean ====
/-
  The function both programs compute.

  Inputs: activations x[1024, 256, 256], a table of weight slices w[1024, 256, 256], a bias row b[1, 1, 256] and, for each of
  the 1024 tiles, the number idx[t] of the weight slice that tile uses. Over the extended reals the result at (t, p, o) is

      sin (30 * (sum over k of x(t, p, k) * w(idx[t], k, o)  +  b(0, 0, o))).

  The slice number is the index word read as an unsigned number; so that it is a slice number for every word, a word of
  1024 or more is sent to the last slice (under the precondition no such word occurs).
-/
import Idealize.ShloMosaic.Lib.ValueIdx
import Idealize.ShloMosaic.PureOps.Ideal

noncomputable section

namespace Cert.TileSine

open Idealize.ShloMosaic Idealize.ShloMosaic.ValueIdx

/-- The weight slice tile `t` uses. -/
def slice (idx : IVec ⟨1, ![1024]⟩ 32) (t : Fin 1024) : Fin 1024 := ⟨min (idx (ix1 t)).toNat 1023, by omega⟩

/-- Where the index word is below 1024 the slice number is the word. -/
theorem slice_val (idx : IVec ⟨1, ![1024]⟩ 32) (t : Fin 1024) (h : (idx (ix1 t)).toNat < 1024) :
    (slice idx t).val = (idx (ix1 t)).toNat := by
  show min _ 1023 = _
  omega

/-- The result array as a function of the four argument arrays. -/
def out (x w : (⟨3, ![1024, 256, 256]⟩ : Shape).Idx → EReal) (b : (⟨3, ![1, 1, 256]⟩ : Shape).Idx → EReal)
    (idx : IVec ⟨1, ![1024]⟩ 32) : (⟨3, ![1024, 256, 256]⟩ : Shape).Idx → EReal :=
  fun j => Ideal.sin (Ideal.ofBits .f32 0x41F00000#32
    * ((∑ k : Fin 256, x (ix3 (j 0) (j 1) k) * w (ix3 (slice idx (j 0)) k (j 2))) + b (ix3 (0 : Fin 1) (0 : Fin 1) (j 2))))

end Cert.TileSine

end
-- ==== Proof.TileValue.lean ====
/-
  The array the kernel leaves, over the extended reals.

  The grid has one point per tile. At point t the pipeline has fetched block t of the activations, the weight slice whose
  number is the t-th index word, and the bias row; the body stores one block, which is written back as block t of the
  result. So:
    * the block the body stores is its arithmetic applied to the three fetched blocks (the one store covers the block);
    * the activations' block at (z, p, k) is x(t, p, k); the weight block at (z, k, q) is w(idx[t], k, q), the word read
      unsigned, which the range of the index words makes a slice number; the bias block is the bias row itself;
    * hence what point t writes back is block t of the function `Cert.TileSine.out` of the four argument arrays;
    * the 1024 blocks cover the result array (index (t, p, o) lies in block t), so the array ends holding that function.
-/
import proofs.«166706_j11982958756456_1_alg».proof.Proof.Gen.KernelIdeal.Frame
import proofs.«166706_j11982958756456_1_alg».proof.Proof.TileBody
import proofs.«166706_j11982958756456_1_alg».proof.Proof.Spec
import Idealize.ShloMosaic.Lib.Pipeline.Value

set_option maxRecDepth 16384

noncomputable section

namespace Cert.KernelIdeal.TileValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The block one point stores -/

theorem zero3 : (![0, 0, 0] : Fin 3 → Nat) = fun _ => 0 := funext fun a => by fin_cases a <;> rfl

/-- What the body leaves in the output's staging buffer is its arithmetic applied to the three input blocks: the body's
    one store covers the whole block, and each load reads a whole staging buffer. -/
theorem out_eq {F : FTy → Type} [FloatOps F] (c : Dev nD) (i : grid0.Coords) (arg2 : Memref sig .tc .vmem S1x256x256 .f32) (harg2 : arg2.IsWhole)
    (arg3 : Memref sig .tc .vmem S1x256x256 .f32) (harg3 : arg3.IsWhole) (arg4 : Memref sig .tc .vmem S1x1x256 .f32) (harg4 : arg4.IsWhole)
    (arg5 : Memref sig .tc .vmem S1x256x256 .f32) (harg5 : arg5.IsWhole)
    (x0 : Vec F S1x256x256 .f32) (x1 : Vec F S1x256x256 .f32) (x2 : Vec F S1x1x256 .f32) (xt0 : TbBuf0 (F := F) c tbM0_0) :
    out0_A_3 (F := F) c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero zero3]
  simp only [View.readAt_eq_ld, harg2.read_unread, harg3.read_unread, harg4.read_unread,
    View.ld_unit_zero (S := S1x256x256) zero3, View.ld_unit_zero (S := S1x1x256) zero3]

/-! ## The fetched blocks, read off the argument arrays -/

variable (m : (ℓ : Loc nD τ sig) → Buf (Elt Ideal) ℓ) (ρ : Dev nD → PrngReg) (hO : Ok m)

/-- The argument arrays, at their literal types. -/
abbrev X (c : Dev nD) : Vec Ideal S1024x256x256 .f32 := m ((c : Thread nD τ).loc main_arg0)
abbrev W (c : Dev nD) : Vec Ideal S1024x256x256 .f32 := m ((c : Thread nD τ).loc main_arg1)
abbrev B (c : Dev nD) : Vec Ideal S1x1x256 .f32 := m ((c : Thread nD τ).loc main_arg2)
/-- The index table the region reads. -/
abbrev I : IVec S1024 32 := tbl m 0

/-- The three input blocks at point `t`, at their literal types. -/
abbrev xblk (c : Dev nD) (t : Fin (cfgM m hO).N) : Vec Ideal S1x256x256 .f32 := iblk m hO c 0 t
abbrev wblk (c : Dev nD) (t : Fin (cfgM m hO).N) : Vec Ideal S1x256x256 .f32 := iblk m hO c 1 t
abbrev bblk (c : Dev nD) (t : Fin (cfgM m hO).N) : Vec Ideal S1x1x256 .f32 := iblk m hO c 2 t

/-- The result the kernel is shown to leave. -/
abbrev G (c : Dev nD) : S1024x256x256.Idx → EReal := Cert.TileSine.out (X m c) (W m c) (B m c) (I m)

/-- The tile a grid point works on: the grid's one coordinate, below 1024. -/
def tile (t : Fin grid0.N) : Fin 1024 := grid0.coords t 0

theorem tile_val (t : Fin grid0.N) : (tile t).val = (grid0.coords t 0).val := rfl

/-- The word of a tile number is that number. -/
theorem tile_word (t : Fin grid0.N) : (BitVec.ofNat 32 (grid0.coords t 0).val).toNat = (tile t).val := by
  have := (tile t).isLt
  rw [BitVec.toNat_ofNat, Nat.mod_eq_of_lt (by rw [← tile_val]; omega)]
  rfl

/-- A block index of extent 1 is 0. -/
theorem unit_coord (y : S1x256x256.Idx) : (y 0).val = 0 := by
  have := (y 0).isLt
  simp at this
  omega

/-- The activations' block at point `t` is tile `t` of the activations. -/
theorem xblk_apply (c : Dev nD) (t : Fin (cfgM m hO).N) (y : S1x256x256.Idx) :
    xblk m hO c t y = X m c (ix3 (tile t) (y 1) (y 2)) := by
  show V m c main_arg0 ((((cfgM m hO).win 0).blk t).view.emb y) = V m c main_arg0 (ix3 (tile t) (y 1) (y 2))
  refine congrArg _ (funext fun a => Fin.ext ?_)
  match a with
  | ⟨0, _⟩ =>
    show (BitVec.ofNat 32 (grid0.coords t 0).val).toNat * 1 + 1 * (y 0).val = (tile t).val
    have e1 := tile_word t
    have e2 := unit_coord y
    omega
  | ⟨1, _⟩ =>
    show 0 * 256 + 1 * (y 1).val = (y 1).val
    omega
  | ⟨2, _⟩ =>
    show 0 * 256 + 1 * (y 2).val = (y 2).val
    omega

/-- The table entry the weight window's index map reads at point `t` is entry `t`. -/
theorem word_index (t : Fin grid0.N) :
    (Rect.unit (s := S1024) (k0_off1 (grid0.coords t)) S1.size (k0_off1_inb (grid0.coords t))).emb
        (Shape.Idx.first (numel1_S1.symm ▸ Nat.one_pos)) = (ix1 (tile t) : S1024.Idx) := by
  refine funext fun a => Fin.ext ?_
  match a with
  | ⟨0, _⟩ =>
    have h1 : ((Shape.Idx.first (numel1_S1.symm ▸ Nat.one_pos) : S1.Idx) 0).val = 0 := by
      have := ((Shape.Idx.first (numel1_S1.symm ▸ Nat.one_pos) : S1.Idx) 0).isLt
      simp at this
      omega
    show (BitVec.ofNat 32 (grid0.coords t 0).val).toNat + 1 * ((Shape.Idx.first (numel1_S1.symm ▸ Nat.one_pos) : S1.Idx) 0).val
      = (tile t).val
    have e1 := tile_word t
    omega

/-- The index word the weight window's index map reads at point `t`, as a number: the `t`-th word of the table. -/
theorem word_at (t : Fin grid0.N) :
    (I m ((Rect.unit (s := S1024) (k0_off1 (grid0.coords t)) S1.size (k0_off1_inb (grid0.coords t))).emb
        (Shape.Idx.first (numel1_S1.symm ▸ Nat.one_pos)))).toNat = (I m (ix1 (tile t))).toNat :=
  congrArg (fun x : S1024.Idx => (I m x).toNat) (word_index t)

/-- The weight block at point `t` is the slice of the table that the `t`-th index word names. -/
theorem wblk_apply (hI : ∀ x, (I m x).toNat < 1024) (c : Dev nD) (t : Fin (cfgM m hO).N) (y : S1x256x256.Idx) :
    wblk m hO c t y = W m c (ix3 (Cert.TileSine.slice (I m) (tile t)) (y 1) (y 2)) := by
  show V m c main_arg1 ((((cfgM m hO).win 1).blk t).view.emb y)
    = V m c main_arg1 (ix3 (Cert.TileSine.slice (I m) (tile t)) (y 1) (y 2))
  refine congrArg _ (funext fun a => Fin.ext ?_)
  match a with
  | ⟨0, _⟩ =>
    show (I m ((Rect.unit (s := S1024) (k0_off1 (grid0.coords t)) S1.size (k0_off1_inb (grid0.coords t))).emb
        (Shape.Idx.first (numel1_S1.symm ▸ Nat.one_pos)))).toNat * 1 + 1 * (y 0).val
      = (Cert.TileSine.slice (I m) (tile t)).val
    have e1 := word_at m t
    have e2 := Cert.TileSine.slice_val (I m) (tile t) (hI _)
    have e3 := unit_coord y
    omega
  | ⟨1, _⟩ =>
    show 0 * 256 + 1 * (y 1).val = (y 1).val
    omega
  | ⟨2, _⟩ =>
    show 0 * 256 + 1 * (y 2).val = (y 2).val
    omega

/-- The bias block at every point is the bias row. -/
theorem bblk_apply (c : Dev nD) (t : Fin (cfgM m hO).N) (y : S1x1x256.Idx) : bblk m hO c t y = B m c y := by
  show V m c main_arg2 ((((cfgM m hO).win 2).blk t).view.emb y) = V m c main_arg2 y
  refine congrArg _ (funext fun a => Fin.ext ?_)
  match a with
  | ⟨0, _⟩ => show 0 * 1 + 1 * (y 0).val = (y 0).val; omega
  | ⟨1, _⟩ => show 0 * 1 + 1 * (y 1).val = (y 1).val; omega
  | ⟨2, _⟩ => show 0 * 256 + 1 * (y 2).val = (y 2).val; omega

/-! ## What a point writes back -/

/-- The block stored at point `t`, at (z, p, q), is the result function at (t, p, q). -/
theorem block_value (hI : ∀ x, (I m x).toNat < 1024) (c : Dev nD) (t : Fin (cfgM m hO).N) (z : Fin 1) (p q : Fin 256) :
    k0_pay1 (F := Ideal) (xblk m hO c t) (wblk m hO c t) (bblk m hO c t) (ix3 z p q) = G m c (ix3 (tile t) p q) := by
  refine (Cert.TileBody.pay_apply (xblk m hO c t) (wblk m hO c t) (bblk m hO c t) z p q).trans ?_
  refine congrArg (fun s => Ideal.sin (Ideal.ofBits .f32 0x41F00000#32 * s))
    (congrArg₂ (· + ·) (Finset.sum_congr rfl fun k _ => ?_) ?_)
  · exact congrArg₂ (· * ·) (xblk_apply m hO c t (ix3 (0 : Fin 1) p k)) (wblk_apply m hO hI c t (ix3 (0 : Fin 1) k q))
  · exact bblk_apply m hO c t (ix3 (0 : Fin 1) (0 : Fin 1) q)

/-- Where block `t` of the result array puts its index `y`. -/
theorem out_emb (t : Fin (cfgM m hO).N) (y : S1x256x256.Idx) :
    ((((cfgM m hO).win 3).blk t).view.emb y : S1024x256x256.Idx) = ix3 (tile t) (y 1) (y 2) := by
  refine funext fun a => Fin.ext ?_
  match a with
  | ⟨0, _⟩ =>
    show (BitVec.ofNat 32 (grid0.coords t 0).val).toNat * 1 + 1 * (y 0).val = (tile t).val
    have e1 := tile_word t
    have e2 := unit_coord y
    omega
  | ⟨1, _⟩ =>
    show 0 * 256 + 1 * (y 1).val = (y 1).val
    omega
  | ⟨2, _⟩ =>
    show 0 * 256 + 1 * (y 2).val = (y 2).val
    omega

/-- WHAT POINT `t` WRITES BACK is block `t` of the result function. -/
theorem flushed_eq (hI : ∀ x, (I m x).toNat < 1024) (c : Dev nD) (t : Fin (cfgM m hO).N) :
    (dats m hO 0 c).flushed 3 t = (((cfgM m hO).win 3).blk t).view.read (Elt Ideal) (G m c) := by
  show ((cfgM m hO).win 3).cut (grid0.coords t) ((dats m hO 0 c).after 3 t) = _
  rw [after0_3]
  refine funext fun (y : S1x256x256.Idx) => ?_
  show outsAt0 m hO c t y = G m c ((((cfgM m hO).win 3).blk t).view.emb y)
  unfold outsAt0
  refine (congrFun (out_eq (F := Ideal) c (grid0.coords t) (ms0_0 m hO t) (hs0_0 m hO t) (ms0_1 m hO t) (hs0_1 m hO t)
    (ms0_2 m hO t) (hs0_2 m hO t) (ms0_3 m hO t) (hs0_3 m hO t) (xblk m hO c t) (wblk m hO c t) (bblk m hO c t) (tbl m 0)) y).trans ?_
  refine Eq.trans ?_ (congrArg (G m c) (out_emb m hO t y).symm)
  refine (congrArg (k0_pay1 (F := Ideal) (xblk m hO c t) (wblk m hO c t) (bblk m hO c t)) (eq_ix3 y)).trans ?_
  exact block_value m hO hI c t (y 0) (y 1) (y 2)

/-! ## The blocks cover the result array -/

/-- Consecutive points are consecutive tiles. -/
theorem tile_eq (t : Fin grid0.N) : (tile t).val = t.val := by
  have hs : grid0.stride 0 = 1 := by decide
  have hN : grid0.N = 1024 := N_0
  have := t.isLt
  show t.val / grid0.stride 0 % 1024 = t.val
  rw [hs, Nat.div_one, Nat.mod_eq_of_lt (by omega)]

/-- Every index of the result array lies in the block of the point that is its tile. -/
theorem cover (i : S1024x256x256.Idx) :
    ∃ t : Fin (cfgM m hO).N, ((cfgM m hO).win 3).flush t = true ∧ i ∈ (((cfgM m hO).win 3).blk t).view.set := by
  have hi0 : (i 0).val < 1024 := (i 0).isLt
  let t : Fin grid0.N := ⟨(i 0).val, by rw [N_0]; exact hi0⟩
  refine ⟨t, flush0_3 (adm m hO) t, ?_⟩
  have ht : tile t = i 0 := Fin.ext (tile_eq t)
  have he : ((((cfgM m hO).win 3).blk t).view.emb (ix3 (0 : Fin 1) (i 1) (i 2)) : S1024x256x256.Idx) = i :=
    (out_emb m hO t (ix3 (0 : Fin 1) (i 1) (i 2))).trans
      ((congrArg (fun r : Fin 1024 => (ix3 r (i 1) (i 2) : S1024x256x256.Idx)) ht).trans (eq_ix3 i).symm)
  have hmem := (((cfgM m hO).win 3).blk t).view.emb_mem_set (ix3 (0 : Fin 1) (i 1) (i 2))
  exact he ▸ hmem

/-- THE RESULT ARRAY after the run is the result function of the argument arrays. -/
theorem final (hI : ∀ x, (I m x).toNat < 1024) (c : Dev nD) : (dats m hO 0 c).arrAt 3 (cfgM m hO).N = G m c :=
  (dats m hO 0 c).arrAt_eq_of_cover 3 (G m c) (fun t _ => flushed_eq m hO hI c t) (cover m hO)

/-! ## The run, read -/

/-- Every weakly fair execution of the kernel's program terminates with the result array at the result function and the
    argument arrays unchanged. -/
theorem run (hO : Ok m) (hI : ∀ x, (I m x).toNat < 1024) :
    θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hO hI c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c)⟩)
    (run_main m ρ hO)

end Cert.KernelIdeal.TileValue

end
-- ==== Proof.LibGatherSlabs.lean ====
/-
  A gather that takes whole SLABS of a rank-3 table (what `table[idx]` prints for an `[N, A, B]` table and a vector of `n`
  slab numbers laid out as an `[n, 1]` column of start indices): offset axes 1 and 2, collapsed axis 0, start index map
  `[0]`, the index vector along axis 1 of the start indices, slices of one slab.

  Read at result index `(p, a, b)` it is the table at `(r, a, b)`, where `r` is start index `p` read signed and clamped
  into `[0, N − 1]`: on the slab axis the operand coordinate is the clamped start (no batching axis, and a collapsed axis
  has no offset); on the other two axes there is no start, and the offset coordinate is the result's own coordinate.
-/
import Idealize.ShloMosaic.PureOps
import Idealize.ShloMosaic.Lib.ValueIdx

namespace Cert.GatherSlabs

open Idealize.ShloMosaic Idealize.ShloMosaic.ValueIdx

variable {α : Type}

/-- The dimension numbers of a slab-take from an `[N, A, B]` table by an `[n, 1]` column of slab numbers. -/
abbrev slabDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- THE SLAB-TAKE READ AT `(p, a, b)`: the table at slab `idx[p, 0]` (signed, clamped into `[0, N − 1]`), at `(a, b)`. -/
theorem gather_slabs_apply {N A B n w : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (p : Fin n) (a : Fin A) (b : Fin B) :
    Host.gather (slabDims N A B n wf) x idx (ix3 p a b)
      = x (ix3 ⟨min (idx (ix2 p ⟨0, Nat.one_pos⟩)).toInt.toNat (N - 1), by omega⟩ a b) := by
  unfold Host.gather
  congr 1
  funext c
  refine Fin.ext ?_
  show (slabDims N A B n wf).start (ix3 p a b) idx c + (slabDims N A B n wf).batchCoord (ix3 p a b) c
    + (slabDims N A B n wf).offCoord (ix3 p a b) c = _
  rw [GatherDims.batchCoord_eq_zero _ _ _ List.not_mem_nil, Nat.add_zero]
  match c with
  | ⟨0, _⟩ =>
    -- the slab axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 3) ∈ (slabDims N A B n wf).startIndexMap from List.mem_singleton.mpr rfl)]
    have hsi : (slabDims N A B n wf).siIdx (ix3 p a b)
        ⟨List.idxOf (⟨0, by decide⟩ : Fin 3) (slabDims N A B n wf).startIndexMap,
          List.idxOf_lt_length_iff.2 (List.mem_singleton.mpr rfl)⟩ = ix2 p ⟨0, Nat.one_pos⟩ := by
      funext d; refine Fin.ext ?_
      match d with
      | ⟨0, _⟩ => rfl
      | ⟨1, _⟩ => rfl
    rw [hsi]
    rfl
  | ⟨1, _⟩ =>
    -- the first kept axis: no start index names it; the offset is the result's own coordinate
    have hs : (slabDims N A B n wf).start (ix3 p a b) idx (⟨1, by decide⟩ : Fin 3) = 0 := by
      unfold GatherDims.start
      rw [dif_neg (fun h => by have := congrArg Fin.val (List.mem_singleton.mp h); simp at this)]
    rw [hs, Nat.zero_add]
    rfl
  | ⟨2, _⟩ =>
    -- the second kept axis, likewise
    have hs : (slabDims N A B n wf).start (ix3 p a b) idx (⟨2, by decide⟩ : Fin 3) = 0 := by
      unfold GatherDims.start
      rw [dif_neg (fun h => by have := congrArg Fin.val (List.mem_singleton.mp h); simp at this)]
    rw [hs, Nat.zero_add]
    rfl

end Cert.GatherSlabs
-- ==== Proof.LibIndexWords.lean ====
/-
  The index words of a gather (or scatter) of one entry per row.

  Such an operation takes an array of index pairs [row, column]: the concatenation, along a new second axis, of the
  rows' own numbers (an iota) and the labels, each first passed through the wrap of negative indices (a word that is
  negative as a signed number has the axis's extent added to it). On words that are not negative the wrap is the
  identity, so row `p` of the index array holds the word of `p` and the label's word. The lemmas below read each
  piece of that construction at an index; all are stated over arbitrary operands and literal shapes.
-/
import Idealize.ShloMosaic.Lib.IdealHost
import Idealize.ShloMosaic.Lib.ValueIdx
import Idealize.ShloMosaic.Lib.Pipeline.Value

namespace Cert.LibIndexWords

open Idealize.ShloMosaic Idealize.ShloMosaic.ValueIdx

variable {α : Type}

/-- A select on the signed comparison `L < z`, at an index where `z` holds zero and `L` holds a word below 2³¹ (not
    negative as a signed number), takes `L`'s word. -/
theorem select_slt_zero_apply {s : Shape} (L z y : IVec s 32) (i : s.Idx) (hz : z i = 0#32)
    (h : (L i).toNat < 2 ^ 31) : select (cmpi .slt L z) y L i = L i := by
  show Scalar.select (IntOp.cmpi .slt (L i) (z i)) (y i) (L i) = L i
  rw [hz]
  have e : IntOp.cmpi .slt (L i) 0#32 = 0#1 := by
    unfold IntOp.cmpi
    have : (L i).slt 0#32 = false := by
      rw [BitVec.slt_zero_eq_msb, BitVec.msb_eq_false_iff_two_mul_lt]; omega
    rw [this]; rfl
  rw [e, select_zero]

/-- The wrap of negative indices, `select (L < 0) (L + K) L` with both constants broadcast from scalars, leaves a
    word below 2³¹ as it is. -/
theorem wrapIndex_apply {s : Shape} (h0 : (⟨0, ![]⟩ : Shape).BroadcastsInDim s ![]) (K : BitVec 32) (L : IVec s 32)
    (i : s.Idx) (h : (L i).toNat < 2 ^ 31) :
    select (cmpi .slt L (broadcastInDim s ![] h0 (constantI ⟨0, ![]⟩ 32 0#32)))
      (addi L (broadcastInDim s ![] h0 (constantI ⟨0, ![]⟩ 32 K))) L i = L i :=
  select_slt_zero_apply L _ _ i (by rw [broadcastInDim_scalar_apply]; rfl) h

/-- The iota along the one axis of a vector of at most 2³² entries holds at `p` the word whose value is `p`. -/
theorem iotaInDim_vec_toNat {n : Nat} (hn : n ≤ 2 ^ 32) (p : Fin n) :
    (iotaInDim (⟨1, ![n]⟩ : Shape) 32 0 (ix1 p)).toNat = p.val := by
  rw [iotaInDim_apply]
  show (BitVec.ofNat 32 p.val).toNat = p.val
  rw [BitVec.toNat_ofNat]
  exact Nat.mod_eq_of_lt (lt_of_lt_of_le p.isLt hn)

/-- Two one-column arrays laid side by side: column 0 of the result is the first array. -/
theorem concatenate_cols_left {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) := by
  refine concatenate_pair_apply_left (1 : Fin 2) a b h (ix2 p (0 : Fin 2)) rfl (ix2 p (0 : Fin 1)) ?_
  intro c
  match c with
  | ⟨0, _⟩ => rfl
  | ⟨1, _⟩ => rfl

/-- Two one-column arrays laid side by side: column 1 of the result is the second array. -/
theorem concatenate_cols_right {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) := by
  refine concatenate_pair_apply_right (1 : Fin 2) a b h (ix2 p (1 : Fin 2)) rfl rfl (ix2 p (0 : Fin 1)) ?_ ?_
  · intro c hc
    match c with
    | ⟨0, _⟩ => rfl
    | ⟨1, _⟩ => exact absurd rfl hc
  · rfl

/-- A vector broadcast along a new trailing unit axis reads, at row `p`, the vector at `p`. -/
theorem broadcastInDim_col_apply {n : Nat} (hb : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] hb v (ix2 p q) = v (ix1 p) := by
  refine broadcastInDim_apply ![0] hb v (ix2 p q) (ix1 p) ?_
  intro a
  match a with
  | ⟨0, _⟩ =>
    show p.val = if n = 1 then 0 else p.val
    split
    · omega
    · rfl

/-- A one-column array read as a vector holds, at `p`, the array's entry of row `p`. -/
theorem shapeCast_col_apply {n : Nat} (v : (⟨2, ![n, 1]⟩ : Shape).Idx → α)
    (h : (⟨2, ![n, 1]⟩ : Shape).ShapeCasts ⟨1, ![n]⟩) (p : Fin n) :
    shapeCast ⟨1, ![n]⟩ v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

end Cert.LibIndexWords
-- ==== Proof.RefValue.lean ====
/-
  The reference computes the same function.

  The reference wraps negative index words (adds 1024 to a word that is negative as a signed number), takes for each
  tile the whole weight slice its word names (a gather that clamps the word into 0 … 1023), multiplies the tile's
  activations with that slice (a batched product contracting the activations' last axis with the slice's first), adds the
  bias row, multiplies by 30 and takes the sine. When every index word is below 1024 as an unsigned number, no word is
  negative and no word is clamped, so the slice taken for tile t is slice idx[t]; read at (t, p, o) the batched product
  is the sum over k of x(t, p, k) * w(idx[t], k, o), and the bias row reshaped and broadcast reads b(0, 0, o). That is
  `Cert.TileSine.out`.
-/
import proofs.«166706_j11982958756456_1_alg».proof.Proof.Gen.ReferenceIdeal.Read
import proofs.«166706_j11982958756456_1_alg».proof.Proof.Spec
import proofs.«166706_j11982958756456_1_alg».proof.Proof.LibGatherSlabs
import proofs.«166706_j11982958756456_1_alg».proof.Proof.LibIndexWords

noncomputable section

namespace Cert.ReferenceIdeal.RefValue

open Cert.ReferenceIdeal Cert.ReferenceIdeal.Gen Cert.ReferenceIdeal.Read
open Idealize.ShloMosaic Idealize.ShloMosaic.ValueIdx

/-- A word below 2³¹ read as a signed number, then as a natural, is the word read unsigned. -/
theorem toInt_toNat (w : BitVec 32) (h : w.toNat < 2 ^ 31) : w.toInt.toNat = w.toNat := by
  rw [BitVec.toInt_eq_toNat_cond, if_pos (by omega)]
  exact Int.toNat_natCast _

/-- The wrap of negative indices leaves a word below 1024 as it is. -/
theorem wrapped_apply (x3 : IVec S1024 32) (t : Fin 1024) (h : (x3 (ix1 t)).toNat < 1024) :
    val_main_v4 (F := Ideal) x3 (ix1 t) = x3 (ix1 t) := by
  unfold val_main_v4 val_main_v1 val_main_v3 val_main_v0 val_main_v2 val_main_c val_main_c_0
  exact Cert.LibIndexWords.wrapIndex_apply bcast_S_S1024 1024#32 x3 (ix1 t) (by omega)

/-- The gathered weights at (t, k, o): slice idx[t] of the table at (k, o). -/
theorem gathered_apply (x1 : (⟨S1024x256x256, .f32⟩ : BufTy).Contents (Elt Ideal)) (x3 : IVec S1024 32)
    (h3 : ∀ i, (x3 i).toNat < 1024) (t : Fin 1024) (k o : Fin 256) :
    val_main_v6 (F := Ideal) x1 x3 (ix3 t k o) = x1 (ix3 (Cert.TileSine.slice x3 t) k o) := by
  unfold val_main_v6
  refine (Cert.GatherSlabs.gather_slabs_apply (N := 1024) (A := 256) (B := 256) (n := 1024) (by decide)
    gather_S1024x256x256_S1024x1_S1024x256x256_12_0_n_n_0_1_1256256.wf x1 (val_main_v5 (F := Ideal) x3) t k o).trans ?_
  refine congrArg (fun r : Fin 1024 => x1 (ix3 r k o)) (Fin.ext ?_)
  show min (val_main_v5 (F := Ideal) x3 (ix2 t ⟨0, Nat.one_pos⟩)).toInt.toNat (1024 - 1) = (Cert.TileSine.slice x3 t).val
  have e : idx_main_v5 (ix2 t (⟨0, Nat.one_pos⟩ : Fin 1)) = ix1 t := funext fun a => by
    match a with
    | ⟨0, _⟩ => rfl
  have ht := h3 (ix1 t)
  rw [val_main_v5_apply, e, wrapped_apply x3 t ht, toInt_toNat _ (by omega)]
  rfl

/-- THE REFERENCE'S RESULT is the result function of its four arguments. -/
theorem ref_eq (x0 x1 : (⟨S1024x256x256, .f32⟩ : BufTy).Contents (Elt Ideal)) (x2 : (⟨S1x1x256, .f32⟩ : BufTy).Contents (Elt Ideal))
    (x3 : IVec S1024 32) (h3 : ∀ i, (x3 i).toNat < 1024) :
    val_main_v14 (F := Ideal) x0 x1 x2 x3 = Cert.TileSine.out x0 x1 x2 x3 := by
  funext j
  obtain ⟨t, p, o, rfl⟩ : ∃ (t : Fin 1024) (p o : Fin 256), j = ix3 t p o := ⟨j 0, j 1, j 2, eq_ix3 j⟩
  have el : ∀ k : Fin 256, lidx_main_v7 (ix3 t p o) k = ix3 t p k := fun k => funext fun a => by
    match a with
    | ⟨0, _⟩ => rfl
    | ⟨1, _⟩ => rfl
    | ⟨2, _⟩ => rfl
  have er : ∀ k : Fin 256, ridx_main_v7 (ix3 t p o) k = ix3 t k o := fun k => funext fun a => by
    match a with
    | ⟨0, _⟩ => rfl
    | ⟨1, _⟩ => rfl
    | ⟨2, _⟩ => rfl
  have eb : idx_main_v8 (idx_main_v9 (idx_main_v10 (ix3 t p o))) = ix3 (0 : Fin 1) (0 : Fin 1) o := funext fun a => Fin.ext (by
    match a with
    | ⟨0, _⟩ => rfl
    | ⟨1, _⟩ => rfl
    | ⟨2, _⟩ => show (0 * 256 + o.val) % 256 = o.val; have := o.isLt; omega)
  rw [val_main_v14_apply, val_main_v13_apply, val_main_v12_apply, val_main_cst_apply, val_main_v11_apply, val_main_v7_apply,
    val_main_v10_apply, val_main_v9_apply, val_main_v8_apply, eb]
  simp only [el, er, gathered_apply x1 x3 h3]
  rfl

end Cert.ReferenceIdeal.RefValue

end
-- ==== Proof.lean ====
/-
  Per-tile gathered linear layer followed by a sine: the kernel against its reference, over the extended reals.

  For each of 1024 tiles t the result is sin (30 * (x[t] · w[idx[t]] + b)): the tile's [256, 256] activations times the
  weight slice its index word names, plus a bias row, scaled and passed through the sine (`Cert.TileSine.out`, Spec.lean).

  * The kernel visits one tile per grid point; the weight window's block index is the tile's index word read as an
    unsigned number. The precondition asks every index word to be a slice number (0 ≤ idx[t] < 1024, beside the float
    inputs being finite), which is exactly what keeps that block inside the weight table (TableInRange*.lean, from
    IndexRange.lean); under it the generated frame applies to the kernel as printed and to its idealization.
  * Over the extended reals the body's narrowing to bf16 is the identity and its matrix product is the exact sum of
    products, so the block a point writes back is block t of `Cert.TileSine.out`, and the blocks cover the result
    (TileBody.lean, TileValue.lean).
  * The reference wraps negative words, gathers whole slices (clamping), and does one batched product; on slice numbers
    the wrap and the clamp do nothing, and its result is the same function (RefValue.lean). Both sides have the same sum of
    products, the same factor 30 on the left and the same sine, so no law of arithmetic beyond reading the two programs is
    needed, and finiteness of the float inputs is not used.
  * The idealization rewrote nothing, so `preserves` is trivial.
-/
import proofs.«166706_j11982958756456_1_alg».proof.Defs
import proofs.«166706_j11982958756456_1_alg».proof.Proof.Gen.Kernel
import proofs.«166706_j11982958756456_1_alg».proof.Proof.Gen.Kernel.Frame
import proofs.«166706_j11982958756456_1_alg».proof.Proof.Gen.KernelIdeal
import proofs.«166706_j11982958756456_1_alg».proof.Proof.Gen.KernelIdeal.Frame
import proofs.«166706_j11982958756456_1_alg».proof.Proof.Gen.ReferenceIdeal
import proofs.«166706_j11982958756456_1_alg».proof.Proof.Gen.ReferenceIdeal.Run
import proofs.«166706_j11982958756456_1_alg».proof.Proof.Gen.Pre_finite_inputs
import proofs.«166706_j11982958756456_1_alg».proof.Proof.TableInRangeBits
import proofs.«166706_j11982958756456_1_alg».proof.Proof.TableInRangeIdeal
import proofs.«166706_j11982958756456_1_alg».proof.Proof.TileValue
import proofs.«166706_j11982958756456_1_alg».proof.Proof.RefValue
import Idealize.ShloMosaic.Adequacy
import Idealize.ShloMosaic.Init

noncomputable section

namespace Cert.Proof

open Idealize.ShloMosaic Idealize.SL.Sem

/-- The kernel as printed runs: its table-indexed window stays inside the weight table. -/
theorem frame_k : Cert.frame_Kernel := fun m ρ h =>
  Cert.Kernel.Gen.frame m ρ (Cert.Kernel.TableInRange.ok_of_pre m h)

/-- So does its idealization. -/
theorem frame_ki : Cert.frame_KernelIdeal := fun m ρ h =>
  Cert.KernelIdeal.Gen.frame m ρ (Cert.KernelIdeal.TableInRange.ok_of_pre m h)

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `Cert.TileSine.out` of the four arguments. -/
theorem algebraic : Cert.algebraic_KernelIdeal_ReferenceIdeal := by
  intro m ρ m' ρ' hpre hagree
  have hI := Cert.KernelIdeal.TableInRange.word_lt m hpre
  refine ⟨fun c => Cert.KernelIdeal.TileValue.G m c,
    Cert.KernelIdeal.TileValue.run m ρ (Cert.KernelIdeal.TableInRange.ok_of_pre m hpre) hI, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2]
  obtain rfl : c = 0 := Subsingleton.elim _ _
  exact Cert.ReferenceIdeal.RefValue.ref_eq _ _ _ _ hI

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
